-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x64 : Shape := ⟨3, ![1024, 200, 64]⟩
abbrev S1024x200 : Shape := ⟨2, ![1024, 200]⟩
abbrev S_ : Shape := ⟨0, ![]⟩

class Facts : Prop where
  bcast_S_S1024x200x64 : S_.BroadcastsInDim S1024x200x64 (![] : Fin 0 → Fin S1024x200x64.rank)
  reducesTo_S1024x200x64_S_d0_1_2 : S1024x200x64.ReducesTo [0, 1, 2] S_
  h_S_ : 0 < S_.numel

variable [Facts]

def fn {F : FTy → Type} [FloatOps F] (main_arg0 : FVec F S1024x200x64 .f32) (main_arg1 : IVec S1024x200 32) (main_arg2 : IVec S1024x200 32) : IVec S_ 1 :=
  let main_v0 : FVec F S1024x200x64 .f32 := Host.absf main_arg0
  let main_cst : FVec F S_ .f32 := constant S_ .f32 0x7F800000#32
  let main_v1 : FVec F S1024x200x64 .f32 := broadcastInDim S1024x200x64 ![] bcast_S_S1024x200x64 main_cst
  let main_v2 : IVec S1024x200x64 1 := cmpf .olt main_v0 main_v1
  let main_c : IVec S_ 1 := constantI S_ 1 1#1
  let main_v3 : IVec S_ 1 := (fun x v => Host.reduce IntOp.andi x v reducesTo_S1024x200x64_S_d0_1_2 h_S_) main_v2 main_c
  main_v3
-- ==== Kernel.lean ====
abbrev S1024x200x64 : Shape := ⟨3, ![1024, 200, 64]⟩
abbrev S1024x200 : Shape := ⟨2, ![1024, 200]⟩
abbrev S1024x256x64 : Shape := ⟨3, ![1024, 256, 64]⟩
abbrev S1024x256x200 : Shape := ⟨3, ![1024, 256, 200]⟩
abbrev S32x200x64 : Shape := ⟨3, ![32, 200, 64]⟩
abbrev S32x200 : Shape := ⟨2, ![32, 200]⟩
abbrev S32x256x64 : Shape := ⟨3, ![32, 256, 64]⟩
abbrev S32x256x200 : Shape := ⟨3, ![32, 256, 200]⟩
abbrev S32x1x200 : Shape := ⟨3, ![32, 1, 200]⟩
abbrev S1x128x1 : Shape := ⟨3, ![1, 128, 1]⟩
abbrev S32x128x200 : Shape := ⟨3, ![32, 128, 200]⟩
abbrev S32x128 : Shape := ⟨2, ![32, 128]⟩
abbrev S32x128x64 : Shape := ⟨3, ![32, 128, 64]⟩
abbrev S32x128x1 : Shape := ⟨3, ![32, 128, 1]⟩

abbrev nBuf : Space → Nat
  | .hbm => 5
  | .vmem => 11
  | .smem => 0
  | _ => 0

abbrev bufTy : (tb : Table) → Fin (tcTables nBuf tb) → BufTy
  | .hbm, ⟨0, _⟩ => ⟨S1024x200x64, .f32⟩
  | .hbm, ⟨1, _⟩ => ⟨S1024x200, .i32⟩
  | .hbm, ⟨2, _⟩ => ⟨S1024x200, .i32⟩
  | .hbm, ⟨3, _⟩ => ⟨S1024x256x64, .f32⟩
  | .hbm, ⟨4, _⟩ => ⟨S1024x256x200, .i32⟩
  | .local _ .vmem, ⟨0, _⟩ => ⟨S32x200x64, .f32⟩
  | .local _ .vmem, ⟨1, _⟩ => ⟨S32x200x64, .f32⟩
  | .local _ .vmem, ⟨2, _⟩ => ⟨S32x200, .i32⟩
  | .local _ .vmem, ⟨3, _⟩ => ⟨S32x200, .i32⟩
  | .local _ .vmem, ⟨4, _⟩ => ⟨S32x200, .i32⟩
  | .local _ .vmem, ⟨5, _⟩ => ⟨S32x200, .i32⟩
  | .local _ .vmem, ⟨6, _⟩ => ⟨S32x256x64, .f32⟩
  | .local _ .vmem, ⟨7, _⟩ => ⟨S32x256x64, .f32⟩
  | .local _ .vmem, ⟨8, _⟩ => ⟨S32x256x200, .i32⟩
  | .local _ .vmem, ⟨9, _⟩ => ⟨S32x256x200, .i32⟩
  | .local _ .vmem, ⟨10, _⟩ => ⟨S32x200x64, .bf16⟩
  | _, _ => ⟨S1024x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v10 : BitVec 32 := Scalar.addi c0_i32 c2_i32
  let c1_i32 : BitVec 32 := 1#32
  ⟨c0_i32, v10, c1_i32⟩
def k0_mult1 (k0_t1 : Fin k0_t1_loop.trips) : BitVec 32 :=
  let c0_i32_11 : BitVec 32 := 0#32
  let c0_i32 : BitVec 32 := 0#32
  let c1_i32 : BitVec 32 := 1#32
  let arg7 : BitVec 32 := Scf.iv c0_i32 c1_i32 k0_t1
  let c1_i32_10 : BitVec 32 := 1#32
  let v11 : BitVec 32 := Scalar.muli arg7 c1_i32_10
  let v12 : BitVec 32 := Scalar.addi c0_i32_11 v11
  let c128_i32 : BitVec 32 := 128#32
  let v13 : BitVec 32 := Scalar.muli v12 c128_i32
  v13
def k0_off1 (k0_t1 : Fin k0_t1_loop.trips) : Fin 3 → Nat :=
  let c0_20 : Index := 0#32
  let c0_i32_11 : BitVec 32 := 0#32
  let c0_i32 : BitVec 32 := 0#32
  let c1_i32 : BitVec 32 := 1#32
  let arg7 : BitVec 32 := Scf.iv c0_i32 c1_i32 k0_t1
  let c1_i32_10 : BitVec 32 := 1#32
  let v11 : BitVec 32 := Scalar.muli arg7 c1_i32_10
  let v12 : BitVec 32 := Scalar.addi c0_i32_11 v11
  let c128_i32 : BitVec 32 := 128#32
  let v13 : BitVec 32 := Scalar.muli v12 c128_i32
  let v14 : BitVec 32 := v13
  let v40 : Index := Scalar.indexCast v14
  let c0_21 : Index := 0#32
  ![0, v40.toNat, 0]
def k0_off2 (k0_t1 : Fin k0_t1_loop.trips) : Fin 3 → Nat :=
  let c0_22 : Index := 0#32
  let c0_i32_11 : BitVec 32 := 0#32
  let c0_i32 : BitVec 32 := 0#32
  let c1_i32 : BitVec 32 := 1#32
  let arg7 : BitVec 32 := Scf.iv c0_i32 c1_i32 k0_t1
  let c1_i32_10 : BitVec 32 := 1#32
  let v11 : BitVec 32 := Scalar.muli arg7 c1_i32_10
  let v12 : BitVec 32 := Scalar.addi c0_i32_11 v11
  let c128_i32 : BitVec 32 := 128#32
  let v13 : BitVec 32 := Scalar.muli v12 c128_i32
  let v14 : BitVec 32 := v13
  let v43 : Index := Scalar.indexCast v14
  let c0_23 : Index := 0#32
  ![0, v43.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256x200 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x200_S32x200_0_0 : ∀ a, (![0, 0] : Fin 2 → Nat) a + S32x200.size a ≤ S32x200.size a
  h_S32x200 : 0 < S32x200.numel
  shapeCasts_S32x200_S32x1x200 : S32x200.ShapeCasts S32x1x200
  inb_S32x200x64_S32x200x64_0_0_0 : ∀ a, (![0, 0, 0] : Fin 3 → Nat) a + S32x200x64.size a ≤ S32x200x64.size a
  h_S32x200x64 : 0 < S32x200x64.numel
  bitsLt_bf16_f32 : FTy.bits .bf16 < FTy.bits .f32
  shapeCasts_S32x200x64_S32x200x64 : S32x200x64.ShapeCasts S32x200x64
  packedbf16_S32x200x64_S32x200x64_0_0_0 : (Rect.unit (s := S32x200x64) ![0, 0, 0] S32x200x64.size inb_S32x200x64_S32x200x64_0_0_0).PackedRows (EltTy.packing .bf16)
  iota_S1x128x1_d1_w32 : S1x128x1.Iotas .tc 32 [1]
  broadcasts_S32x1x200_S32x128x200 : S32x1x200.Broadcasts S32x128x200
  broadcasts_S1x128x1_S32x128x200 : S1x128x1.Broadcasts S32x128x200
  natLt_1_32 : 1 < 32
  reduces_S32x128x200_S32x128 : S32x128x200.Reduces [2] S32x128
  shapeCasts_S32x128_S32x128x1 : S32x128.ShapeCasts S32x128x1
  broadcasts_S32x128x1_S32x128x64 : S32x128x1.Broadcasts S32x128x64
  h_S32x128x64 : 0 < S32x128x64.numel
  h_S32x128x200 : 0 < S32x128x200.numel
  dot_S32x128x200_S32x200x64_S32x128x64_2_1_1_2_0_0_wf : DotDims.WF S32x128x200 S32x200x64 S32x128x64 [2] [1] [1] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x128x64.size a ≤ S32x256x64.size a
  k0_off2_inb : ∀ k0_t1 : Fin k0_t1_loop.trips, ∀ a, (k0_off2 k0_t1) a + S32x128x200.size a ≤ S32x256x200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200x64.size a ≤ S1024x200x64.size a
  hwx0_0 : ∀ i : grid0.Coords, EltTy.bits .f32 = 32 ∨ (Rect.block (s := S1024x200x64) S32x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200.size a ≤ S1024x200.size a
  hwx0_1 : ∀ i : grid0.Coords, EltTy.bits .i32 = 32 ∨ (Rect.block (s := S1024x200) S32x200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200.size a ≤ S1024x200.size a
  hwx0_2 : ∀ i : grid0.Coords, EltTy.bits .i32 = 32 ∨ (Rect.block (s := S1024x200) S32x200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256x64.size a ≤ S1024x256x64.size a
  hwx0_3 : ∀ i : grid0.Coords, EltTy.bits .f32 = 32 ∨ (Rect.block (s := S1024x256x64) S32x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256x200.size a ≤ S1024x256x200.size a
  hwx0_4 : ∀ i : grid0.Coords, EltTy.bits .i32 = 32 ∨ (Rect.block (s := S1024x256x200) S32x256x200.size (cc0_transform_4 i) (hinb0_4 i)).WholeWords (EltTy.packing .i32)

variable [Facts₀]

def dot_S32x128x200_S32x200x64_S32x128x64_2_1_1_2_0_0 : DotDims S32x128x200 S32x200x64 S32x128x64 where
  lhsContracting := [2]
  rhsContracting := [1]
  lhsNonContracting := [1]
  rhsNonContracting := [2]
  lhsBatch := [0]
  rhsBatch := [0]
  wf := dot_S32x128x200_S32x200x64_S32x128x64_2_1_1_2_0_0_wf

abbrev win0_0 : Pipeline.Window sig grid0 :=
  Pipeline.Window.ofSpec (Memref.whole main_arg0) S32x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x256x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x200x64 : Shape := ⟨3, ![1024, 200, 64]⟩
abbrev S1024x200 : Shape := ⟨2, ![1024, 200]⟩
abbrev S1024x1x200 : Shape := ⟨3, ![1024, 1, 200]⟩
abbrev S256 : Shape := ⟨1, ![256]⟩
abbrev S1x256x1 : Shape := ⟨3, ![1, 256, 1]⟩
abbrev S1024x256x200 : Shape := ⟨3, ![1024, 256, 200]⟩
abbrev S_ : Shape := ⟨0, ![]⟩
abbrev S1024x256 : Shape := ⟨2, ![1024, 256]⟩
abbrev S1024x256x64 : Shape := ⟨3, ![1024, 256, 64]⟩
abbrev S1024x256x1 : Shape := ⟨3, ![1024, 256, 1]⟩

abbrev nBuf : Space → Nat
  | .hbm => 34
  | .vmem => 0
  | .smem => 0
  | _ => 0

abbrev bufTy : (tb : Table) → Fin (tcTables nBuf tb) → BufTy
  | .hbm, ⟨0, _⟩ => ⟨S1024x200x64, .f32⟩
  | .hbm, ⟨1, _⟩ => ⟨S1024x200, .i32⟩
  | .hbm, ⟨2, _⟩ => ⟨S1024x200, .i32⟩
  | .hbm, ⟨3, _⟩ => ⟨S1024x200, .f32⟩
  | .hbm, ⟨4, _⟩ => ⟨S1024x1x200, .i32⟩
  | .hbm, ⟨5, _⟩ => ⟨S256, .i32⟩
  | .hbm, ⟨6, _⟩ => ⟨S1x256x1, .i32⟩
  | .hbm, ⟨7, _⟩ => ⟨S1024x256x200, .i32⟩
  | .hbm, ⟨8, _⟩ => ⟨S1024x256x200, .i32⟩
  | .hbm, ⟨9, _⟩ => ⟨S1024x256x200, .i1⟩
  | .hbm, ⟨10, _⟩ => ⟨S1024x256x200, .f32⟩
  | .hbm, ⟨11, _⟩ => ⟨S1024x1x200, .f32⟩
  | .hbm, ⟨12, _⟩ => ⟨S1024x256x200, .f32⟩
  | .hbm, ⟨13, _⟩ => ⟨S1024x256x200, .f32⟩
  | .hbm, ⟨14, _⟩ => ⟨S_, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .i1⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256x64, .f32⟩
  | .hbm, ⟨30, _⟩ => ⟨S1024x256x1, .f32⟩
  | .hbm, ⟨31, _⟩ => ⟨S1024x256x64, .f32⟩
  | .hbm, ⟨32, _⟩ => ⟨S1024x256x64, .f32⟩
  | .hbm, ⟨33, _⟩ => ⟨S1024x256x200, .i32⟩
  | _, _ => ⟨S1024x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S1024x200_S1024x1x200_0_2 : S1024x200.BroadcastsInDim S1024x1x200 (![0, 2] : Fin 2 → Fin S1024x1x200.rank)
  bcast_S256_S1x256x1_1 : S256.BroadcastsInDim S1x256x1 (![1] : Fin 1 → Fin S1x256x1.rank)
  bcast_S1024x1x200_S1024x256x200_0_1_2 : S1024x1x200.BroadcastsInDim S1024x256x200 (![0, 1, 2] : Fin 3 → Fin S1024x256x200.rank)
  bcast_S1x256x1_S1024x256x200_0_1_2 : S1x256x1.BroadcastsInDim S1024x256x200 (![0, 1, 2] : Fin 3 → Fin S1024x256x200.rank)
  reducesTo_S1024x256x200_S1024x256_d2 : S1024x256x200.ReducesTo [2] S1024x256
  h_S_ : 0 < S_.numel
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S1024x256x1_S1024x256x64_0_1_2 : S1024x256x1.BroadcastsInDim S1024x256x64 (![0, 1, 2] : Fin 3 → Fin S1024x256x64.rank)
  dot_S1024x256x200_S1024x200x64_S1024x256x64_2_1_1_2_0_0_wf : DotDims.WF S1024x256x200 S1024x200x64 S1024x256x64 [2] [1] [1] [2] [0] [0]

variable [Facts₀]

def dot_S1024x256x200_S1024x200x64_S1024x256x64_2_1_1_2_0_0 : DotDims S1024x256x200 S1024x200x64 S1024x256x64 where
  lhsContracting := [2]
  rhsContracting := [1]
  lhsNonContracting := [1]
  rhsNonContracting := [2]
  lhsBatch := [0]
  rhsBatch := [0]
  wf := dot_S1024x256x200_S1024x200x64_S1024x256x64_2_1_1_2_0_0_wf

class Facts : Prop extends Facts₀ where

variable [Facts]
-- ==== Proof.Pieces.lean ====
/-
  What the kernel's body leaves in its two output blocks, as stores.

  The body first keeps the embeddings block `x` (its bf16 cast, `k0_pay1 x`) in a scratch buffer, then runs through the
  two halves `k = 0, 1` of the 256 clusters. In half `k` it stores, at cluster offset `128·k` of each output block,
  one tile: into the first output `k0_pay3 lab msk k (the scratch read back)` (the half's cluster means), into the
  second `k0_pay4 lab msk k` (the half's integer weights), where `lab` and `msk` are the labels' and the mask's
  blocks as loaded. So every store into an output block is one half's tile, and the scratch read back is `k0_pay1 x`.
  Stated for every float family.
-/
import proofs.«403179_j75539884802440_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

/-- A load of a whole buffer through the rectangle at zero offsets of the buffer's own sizes reads its contents. -/
theorem readAt_whole {S : Shape} {e : EltTy} (m : Memref sig .tc .vmem S e) (h : m.IsWhole) (X : Vec F S e)
    {off : Fin S.rank → Nat} (hz : off = fun _ => 0) (inb : ∀ a, off a + S.size a ≤ S.size a) :
    View.readAt (Elt F) m.view (Rect.unit off S.size inb).toLoadRect (h.unread X) = X := by
  simp only [View.readAt_eq_ld, h.read_unread, View.ld_unit_zero (S := S) hz]

/-- A whole-buffer load after ONE whole-buffer store reads what was stored. -/
theorem readAt_after_store {S : Shape} {e : EltTy} (m : Memref sig .tc .vmem S e) (w : Vec F S e)
    {off : Fin S.rank → Nat} (hz : off = fun _ => 0) (inb : ∀ a, off a + S.size a ≤ S.size a) :
    View.readAt (Elt F) m.view (Rect.unit off S.size inb).toLoadRect
      (m.view.writes (Elt F) m.view.junk [⟨Rect.unit off S.size inb, w⟩]) = w := by
  rw [View.readAt_writes_junk_eq_canon]
  funext j
  rw [View.canon_unit_zero (S := S) hz]
  exact congrFun (View.ld_unit_zero (S := S) hz inb w) j

/-- The tile half `k` stores into the first output block: the half's cluster means over the scratch as loaded. -/
abbrev tile3 (lab msk : Vec F S32x200 .i32) (xs : Vec F S32x200x64 .bf16) (k : Fin k0_t1_loop.trips) :
    View.Piece (Elt F) S32x256x64 .f32 :=
  ⟨Rect.unit (k0_off1 k) S32x128x64.size (k0_off1_inb k), k0_pay3 lab msk k xs⟩

/-- The tile half `k` stores into the second output block: the half's integer weights. -/
abbrev tile4 (lab msk : Vec F S32x200 .i32) (k : Fin k0_t1_loop.trips) : View.Piece (Elt F) S32x256x200 .i32 :=
  ⟨Rect.unit (k0_off2 k) S32x128x200.size (k0_off2_inb k), k0_pay4 lab msk k⟩

section Trip
variable (𝒱 : Variants) (bd : Option 𝒱.V) (c : Dev nD) (i : grid0.Coords) (arg1 : Memref sig .tc .vmem S32x200x64 .f32) (harg1 : arg1.IsWhole) (arg2 : Memref sig .tc .vmem S32x200 .i32) (harg2 : arg2.IsWhole) (arg3 : Memref sig .tc .vmem S32x200 .i32) (harg3 : arg3.IsWhole) (arg4 : Memref sig .tc .vmem S32x256x64 .f32) (harg4 : arg4.IsWhole) (arg5 : Memref sig .tc .vmem S32x256x200 .i32) (harg5 : arg5.IsWhole) (arg6 : Memref sig .tc .vmem S32x200x64 .bf16) (harg6 : arg6.IsWhole)
  (v0 v2 : Vec F S32x200 .i32) (X_arg6 : BufTy.Contents (Elt F) arg6.view.ty)

/-- What the scratch reads as inside the loop. -/
abbrev scratchRead : Vec F S32x200x64 .bf16 :=
  View.readAt (Elt F) arg6.view (Rect.unit ![0, 0, 0] S32x200x64.size inb_S32x200x64_S32x200x64_0_0_0).toLoadRect X_arg6

/-- ONE HALF's stores: one tile into each output block. -/
theorem trip_tiles (k : Fin k0_t1_loop.trips) :
    tripL_k0_t1 (F := F) 𝒱 c bd i arg1 harg1 arg2 harg2 arg3 harg3 arg4 harg4 arg5 harg5 arg6 harg6 v0 v2 X_arg6 k
      = ([tile3 v0 v2 (scratchRead arg6 X_arg6) k], [tile4 v0 v2 k]) := by
  unfold tripL_k0_t1
  unfold trip_k0_t1
  rfl

/-- Every store the halves before `n` made into the first output block is some half's tile; -/
theorem mem_before3 (n : ℕ) : ∀ p ∈ (pb_k0_t1 (F := F) 𝒱 c bd i arg1 harg1 arg2 harg2 arg3 harg3 arg4 harg4 arg5 harg5 arg6 harg6 v0 v2 X_arg6 n).1,
    ∃ k : Fin k0_t1_loop.trips, p = tile3 v0 v2 (scratchRead arg6 X_arg6) k := by
  induction n with
  | zero => intro p hp; rw [pb_k0_t1.eq_1] at hp; exact absurd hp List.not_mem_nil
  | succ n ih =>
    intro p hp
    rw [pb_k0_t1.eq_2] at hp
    unfold pb_k0_t1Step at hp
    by_cases h : n < k0_t1_loop.trips
    · rw [dif_pos h, trip_tiles] at hp
      rcases List.mem_append.mp hp with h1 | h1
      · exact ⟨⟨n, h⟩, List.mem_singleton.mp h1⟩
      · exact ih p h1
    · rw [dif_neg h] at hp
      exact ih p hp

/-- and likewise into the second. -/
theorem mem_before4 (n : ℕ) : ∀ p ∈ (pb_k0_t1 (F := F) 𝒱 c bd i arg1 harg1 arg2 harg2 arg3 harg3 arg4 harg4 arg5 harg5 arg6 harg6 v0 v2 X_arg6 n).2,
    ∃ k : Fin k0_t1_loop.trips, p = tile4 v0 v2 k := by
  induction n with
  | zero => intro p hp; rw [pb_k0_t1.eq_1] at hp; exact absurd hp List.not_mem_nil
  | succ n ih =>
    intro p hp
    rw [pb_k0_t1.eq_2] at hp
    unfold pb_k0_t1Step at hp
    by_cases h : n < k0_t1_loop.trips
    · rw [dif_pos h, trip_tiles] at hp
      rcases List.mem_append.mp hp with h1 | h1
      · exact ⟨⟨n, h⟩, List.mem_singleton.mp h1⟩
      · exact ih p h1
    · rw [dif_neg h] at hp
      exact ih p hp

end Trip

section Run
variable (c : Dev nD) (i : grid0.Coords) (arg1 : Memref sig .tc .vmem S32x200x64 .f32) (harg1 : arg1.IsWhole) (arg2 : Memref sig .tc .vmem S32x200 .i32) (harg2 : arg2.IsWhole) (arg3 : Memref sig .tc .vmem S32x200 .i32) (harg3 : arg3.IsWhole) (arg4 : Memref sig .tc .vmem S32x256x64 .f32) (harg4 : arg4.IsWhole) (arg5 : Memref sig .tc .vmem S32x256x200 .i32) (harg5 : arg5.IsWhole) (arg6 : Memref sig .tc .vmem S32x200x64 .bf16) (harg6 : arg6.IsWhole)
  (x0 : Vec F S32x200x64 .f32) (x1 x2 : Vec F S32x200 .i32)

/-- Every store of the whole body into the first output block is a half's tile over the blocks as given:
    the labels' and the mask's blocks are loaded whole, the scratch holds the embeddings' bf16 cast. -/
theorem run_tiles3 : ∀ p ∈ (kernelRun0_A (F := F) c i arg1 harg1 arg2 harg2 arg3 harg3 arg4 harg4 arg5 harg5 arg6 harg6 x0 x1 x2).1,
    ∃ k : Fin k0_t1_loop.trips, p = tile3 x1 x2 (k0_pay1 x0) k := by
  intro p hp
  unfold kernelRun0_A at hp
  dsimp only at hp
  obtain ⟨k, rfl⟩ := mem_before3 _ _ c i arg1 harg1 arg2 harg2 arg3 harg3 arg4 harg4 arg5 harg5 arg6 harg6 _ _ _ _ p hp
  refine ⟨k, ?_⟩
  sl_unfold_words
  unfold scratchRead
  rw [readAt_whole arg2 harg2 x1 zeros2, readAt_whole arg3 harg3 x2 zeros2, readAt_whole arg1 harg1 x0 zeros3,
    readAt_after_store arg6 (k0_pay1 x0) zeros3]

/-- Likewise into the second. -/
theorem run_tiles4 : ∀ p ∈ (kernelRun0_A (F := F) c i arg1 harg1 arg2 harg2 arg3 harg3 arg4 harg4 arg5 harg5 arg6 harg6 x0 x1 x2).2.1,
    ∃ k : Fin k0_t1_loop.trips, p = tile4 x1 x2 k := by
  intro p hp
  unfold kernelRun0_A at hp
  dsimp only at hp
  obtain ⟨k, rfl⟩ := mem_before4 _ _ c i arg1 harg1 arg2 harg2 arg3 harg3 arg4 harg4 arg5 harg5 arg6 harg6 _ _ _ _ p hp
  refine ⟨k, ?_⟩
  rw [readAt_whole arg2 harg2 x1 zeros2, readAt_whole arg3 harg3 x2 zeros2]

end Run

end Cert.KernelIdeal.Pieces

end
-- ==== Proof.Spec.lean ====
/-
  The mathematics both programs compute, stated once over whole arrays and over no program.

  For a row `b`, a cluster number `c` and a token `s` the MEMBERSHIP WEIGHT is
  `w b c s = [label b s = c] · mask b s`: one exactly where the token's label is the cluster's number, times the
  attention mask's value as a real number. A cluster's COUNT is `n b c = Σ_s w b c s`, its guarded reciprocal
  `recip n = 1 / max n 1` where `n > 0` and `0` elsewhere. The two results are

    mean b c d  = (Σ_s w b c s · x b s d) · recip (n b c)      (the cluster's mean embedding)
    wInt b c s  = the weight converted to a 32-bit integer.

  All of it is stated for any number `R` of rows (200 tokens, 64 features), because a row's results depend on that
  row alone: the same functions describe a block of 32 rows and the whole 1024 (`meanAt_rows`, `wIntAt_rows`).

  Also here: the two facts about machine words that the two programs' spellings of the weight differ by — a one-bit
  comparison result widened to 32 bits and read as a signed integer is the bit read as an unsigned one, and the
  cluster number `128·j + c'` of the `c'`-th cluster of the `j`-th half does not wrap in 32 bits.
-/
import Idealize.ShloMosaic.PureOps.Ideal
import Idealize.ShloMosaic.PureOps.Ideal.Laws
import Idealize.ShloMosaic.Lib.ValueIdx

noncomputable section

namespace Cert.ClusterMean

open Idealize.ShloMosaic Idealize.ShloMosaic.ValueIdx

/-- An [R, 200] array of 32-bit words: the labels, or the attention mask. -/
abbrev Words (R : Nat) := (⟨2, ![R, 200]⟩ : Shape).Idx → BitVec 32
/-- The embeddings, [R, 200, 64], as extended reals. -/
abbrev Emb (R : Nat) := (⟨3, ![R, 200, 64]⟩ : Shape).Idx → EReal

/-- The membership weight of a token with label `l` and mask value `a` in cluster number `c`. -/
def weight (l a : BitVec 32) (c : Nat) : EReal :=
  (((IntOp.cmpi .eq l (BitVec.ofNat 32 c)).toNat : ℝ) : EReal) * ((a.toInt : ℝ) : EReal)

/-- The guarded reciprocal: `1 / max n 1` where `n > 0`, else `0` (the three constants as their f32 words). -/
def recip (n : EReal) : EReal :=
  Scalar.select (Ideal.cmp .ogt n (Ideal.ofBits .f32 0x00000000#32))
    (Ideal.div (Ideal.ofBits .f32 0x3F800000#32) (max n (Ideal.ofBits .f32 0x3F800000#32)))
    (Ideal.ofBits .f32 0x00000000#32)

variable {R : Nat}

/-- The weight of token `s` of row `b` in cluster number `c`. -/
def w (lab msk : Words R) (b : Fin R) (c : Nat) (s : Fin 200) : EReal :=
  weight (lab (ix2 b s)) (msk (ix2 b s)) c

/-- The mean embedding of cluster number `c` in row `b`, at feature `d`. -/
def meanAt (x : Emb R) (lab msk : Words R) (b : Fin R) (c : Nat) (d : Fin 64) : EReal :=
  (∑ s : Fin 200, w lab msk b c s * x (ix3 b s d)) * recip (∑ s : Fin 200, w lab msk b c s)

/-- The weight as a 32-bit integer. -/
def wIntAt (lab msk : Words R) (b : Fin R) (c : Nat) (s : Fin 200) : BitVec 32 :=
  Ideal.fptosi 32 (w lab msk b c s)

/-- The first result as an [R, C, 64] array. -/
def mean {C : Nat} (x : Emb R) (lab msk : Words R) (i : (⟨3, ![R, C, 64]⟩ : Shape).Idx) : EReal :=
  meanAt x lab msk ⟨(i 0).val, (i 0).isLt⟩ (i 1).val ⟨(i 2).val, (i 2).isLt⟩

/-- The second result as an [R, C, 200] array. -/
def wInt {C : Nat} (lab msk : Words R) (i : (⟨3, ![R, C, 200]⟩ : Shape).Idx) : BitVec 32 :=
  wIntAt lab msk ⟨(i 0).val, (i 0).isLt⟩ (i 1).val ⟨(i 2).val, (i 2).isLt⟩

/-- The first result at an index whose coordinates are known. -/
theorem mean_of {C : Nat} (x : Emb R) (lab msk : Words R) (i : (⟨3, ![R, C, 64]⟩ : Shape).Idx) (b : Fin R) (c : Nat) (d : Fin 64)
    (h0 : (i 0).val = b.val) (h1 : (i 1).val = c) (h2 : (i 2).val = d.val) :
    mean x lab msk i = meanAt x lab msk b c d := by
  have e0 : (⟨(i 0).val, (i 0).isLt⟩ : Fin R) = b := Fin.ext h0
  have e2 : (⟨(i 2).val, (i 2).isLt⟩ : Fin 64) = d := Fin.ext h2
  unfold mean
  rw [e0, e2, h1]

/-- The second result at an index whose coordinates are known. -/
theorem wInt_of {C : Nat} (lab msk : Words R) (i : (⟨3, ![R, C, 200]⟩ : Shape).Idx) (b : Fin R) (c : Nat) (s : Fin 200)
    (h0 : (i 0).val = b.val) (h1 : (i 1).val = c) (h2 : (i 2).val = s.val) :
    wInt lab msk i = wIntAt lab msk b c s := by
  have e0 : (⟨(i 0).val, (i 0).isLt⟩ : Fin R) = b := Fin.ext h0
  have e2 : (⟨(i 2).val, (i 2).isLt⟩ : Fin 200) = s := Fin.ext h2
  unfold wInt
  rw [e0, e2, h1]

/-- A row's mean depends on that row alone: if the rows of `x, lab, msk` are the rows `f b` of `X, LAB, MSK`,
    the means agree. -/
theorem meanAt_rows {R' : Nat} (x : Emb R) (lab msk : Words R) (X : Emb R') (LAB MSK : Words R') (f : Fin R → Fin R')
    (hx : ∀ b s d, x (ix3 b s d) = X (ix3 (f b) s d)) (hl : ∀ b s, lab (ix2 b s) = LAB (ix2 (f b) s))
    (hm : ∀ b s, msk (ix2 b s) = MSK (ix2 (f b) s)) (b : Fin R) (c : Nat) (d : Fin 64) :
    meanAt x lab msk b c d = meanAt X LAB MSK (f b) c d := by
  unfold meanAt w
  simp only [hx, hl, hm]

/-- Likewise the integer weights. -/
theorem wIntAt_rows {R' : Nat} (lab msk : Words R) (LAB MSK : Words R') (f : Fin R → Fin R')
    (hl : ∀ b s, lab (ix2 b s) = LAB (ix2 (f b) s)) (hm : ∀ b s, msk (ix2 b s) = MSK (ix2 (f b) s))
    (b : Fin R) (c : Nat) (s : Fin 200) :
    wIntAt lab msk b c s = wIntAt LAB MSK (f b) c s := by
  unfold wIntAt w
  rw [hl, hm]

/-- A one-bit word is `0` or `1`. -/
theorem bit_cases (b : BitVec 1) : b = 0#1 ∨ b = 1#1 := by
  by_cases h : b = 1#1
  · exact Or.inr h
  · exact Or.inl (eq_zero_of_ne_one h)

/-- A comparison's bit widened to 32 bits and converted as a SIGNED integer is the bit converted as an UNSIGNED one. -/
theorem sitofp_widen_bit (b : BitVec 1) :
    FloatOps.sitofp (F := Ideal) .f32 (b.setWidth 32) = FloatOps.uitofp (F := Ideal) .f32 b := by
  show (((b.setWidth 32).toInt : ℝ) : EReal) = ((b.toNat : ℝ) : EReal)
  rcases bit_cases b with rfl | rfl
  · norm_num
  · norm_num

/-- The `c'`-th cluster of the `j`-th half (`j < 2`, `c' < 128`) has number `128·j + c'`, also as 32-bit words. -/
theorem half_cluster (j c' : Nat) (hj : j < 2) (hc : c' < 128) :
    BitVec.ofNat 32 (128 * j) + BitVec.ofNat 32 c' = BitVec.ofNat 32 (128 * j + c') := by
  rw [← BitVec.ofNat_add]

end Cert.ClusterMean

end
-- ==== Proof.Payload.lean ====
/-
  The kernel body's arithmetic, read entry by entry over the extended reals.

  For half `k` of the clusters, over a labels block `lab`, a mask block `msk` (both [32, 200]) and the scratch `xs`
  ([32, 200, 64]):
  * the half's weights tile at (b, c', s) is the membership weight of token `s` of row `b` in cluster `128·k + c'`
    (`weights_apply`): the labels' row is repeated over the clusters, the cluster numbers `128·k + (0 … 127)` over rows
    and tokens, the comparison's bit read as 0 or 1 and multiplied by the mask's value;
  * the half's means tile at (b, c', d) is `(Σ_s weights · xs b s d) · recip (Σ_s weights)` (`means_apply`): the lane
    sum is the count, the matrix product into a zero accumulator the sum of products (a change of float format is the
    identity here), and the guarded reciprocal is repeated over the 64 features;
  * the half's integer tile is the weights tile converted (`ints_apply`).
-/
import proofs.«403179_j75539884802440_3_alg».proof.Proof.Gen.KernelIdeal.Skeleton
import proofs.«403179_j75539884802440_3_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.ClusterMean
open Idealize.ShloMosaic Idealize.ShloMosaic.ValueIdx

/-! ## The three repetitions the body uses, read at an entry -/

section Layout
variable {α : Type}

/-- A [32, 200] array viewed [32, 1, 200] and repeated over the 128 clusters reads (b, c', s) at (b, s). -/
theorem overClusters_apply (v : S32x200.Idx → α) (b : Fin 32) (cl : Fin 128) (s : Fin 200) :
    broadcastTo S32x128x200 (shapeCast S32x1x200 v shapeCasts_S32x200_S32x1x200) broadcasts_S32x1x200_S32x128x200 (ix3 b cl s)
      = v (ix2 b s) := by
  refine (broadcastTo_apply _ _ (ix3 b cl s) (ix3 b (0 : Fin 1) s) (fun a => ?_)).trans ?_
  · match a with
    | ⟨0, _⟩ => show b.val = if (32 : Nat) = 1 then 0 else b.val; rw [if_neg (by decide)]
    | ⟨1, _⟩ => show 0 = if (1 : Nat) = 1 then 0 else cl.val; rw [if_pos rfl]
    | ⟨2, _⟩ => show s.val = if (200 : Nat) = 1 then 0 else s.val; rw [if_neg (by decide)]
  · refine shapeCast_apply _ _ (ix3 b (0 : Fin 1) s) (ix2 b s) ?_
    rw [Shape.rowMajor_val_two, Shape.rowMajor_val_three]
    show b.val * 200 + s.val = (b.val * 1 + 0) * 200 + s.val
    omega

/-- A [1, 128, 1] column of per-cluster values repeated over rows and tokens reads (b, c', s) at c'. -/
theorem overRowsTokens_apply (v : S1x128x1.Idx → α) (b : Fin 32) (cl : Fin 128) (s : Fin 200) :
    broadcastTo S32x128x200 v broadcasts_S1x128x1_S32x128x200 (ix3 b cl s) = v (ix3 (0 : Fin 1) cl (0 : Fin 1)) := by
  refine broadcastTo_apply _ _ (ix3 b cl s) (ix3 (0 : Fin 1) cl (0 : Fin 1)) (fun a => ?_)
  match a with
  | ⟨0, _⟩ => show 0 = if (1 : Nat) = 1 then 0 else b.val; rw [if_pos rfl]
  | ⟨1, _⟩ => show cl.val = if (128 : Nat) = 1 then 0 else cl.val; rw [if_neg (by decide)]
  | ⟨2, _⟩ => show 0 = if (1 : Nat) = 1 then 0 else s.val; rw [if_pos rfl]

/-- A [32, 128] array of per-cluster values viewed [32, 128, 1] and repeated over the 64 features reads (b, c', d) at (b, c'). -/
theorem overFeatures_apply (v : S32x128.Idx → α) (b : Fin 32) (cl : Fin 128) (d : Fin 64) :
    broadcastTo S32x128x64 (shapeCast S32x128x1 v shapeCasts_S32x128_S32x128x1) broadcasts_S32x128x1_S32x128x64 (ix3 b cl d)
      = v (ix2 b cl) := by
  refine (broadcastTo_apply _ _ (ix3 b cl d) (ix3 b cl (0 : Fin 1)) (fun a => ?_)).trans ?_
  · match a with
    | ⟨0, _⟩ => show b.val = if (32 : Nat) = 1 then 0 else b.val; rw [if_neg (by decide)]
    | ⟨1, _⟩ => show cl.val = if (128 : Nat) = 1 then 0 else cl.val; rw [if_neg (by decide)]
    | ⟨2, _⟩ => show 0 = if (1 : Nat) = 1 then 0 else d.val; rw [if_pos rfl]
  · refine shapeCast_apply _ _ (ix3 b cl (0 : Fin 1)) (ix2 b cl) ?_
    rw [Shape.rowMajor_val_two, Shape.rowMajor_val_three]
    show b.val * 128 + cl.val = (b.val * 128 + cl.val) * 1 + 0
    omega

end Layout

/-! ## The weights tile -/

/-- The first cluster number of half `k`, as the body computes it from the loop's counter, is `128·k`. -/
theorem halfBase_eq : ∀ k : Fin k0_t1_loop.trips,
    Scalar.muli (Scalar.addi 0#32 (Scalar.muli (Scf.iv 0#32 1#32 k) 1#32)) 128#32 = BitVec.ofNat 32 (128 * k.val) := by
  decide +kernel

theorem half_lt (k : Fin k0_t1_loop.trips) : k.val < 2 := Nat.lt_of_lt_of_le k.isLt k0_t1_abs.2.1

/-- The cluster numbers of half `k`, repeated over rows and tokens, read `128·k + c'` at (b, c', s). -/
theorem clusterNumber_apply (k : Fin k0_t1_loop.trips) (b : Fin 32) (cl : Fin 128) (s : Fin 200) :
    broadcastTo S32x128x200
        (addi (broadcast S1x128x1 (Scalar.muli (Scalar.addi 0#32 (Scalar.muli (Scf.iv 0#32 1#32 k) 1#32)) 128#32))
          (iota .tc S1x128x1 32 [1] iota_S1x128x1_d1_w32))
        broadcasts_S1x128x1_S32x128x200 (ix3 b cl s)
      = BitVec.ofNat 32 (128 * k.val + cl.val) := by
  refine (overRowsTokens_apply _ b cl s).trans ?_
  show Scalar.muli (Scalar.addi 0#32 (Scalar.muli (Scf.iv 0#32 1#32 k) 1#32)) 128#32
      + iota .tc S1x128x1 32 [1] iota_S1x128x1_d1_w32 (ix3 (0 : Fin 1) cl (0 : Fin 1)) = _
  rw [iota_single_apply, halfBase_eq]
  exact half_cluster k.val cl.val (half_lt k) cl.isLt

/-- THE WEIGHTS TILE of half `k` at (b, c', s): the membership weight of token `s` of row `b` in cluster `128·k + c'`. -/
theorem weights_apply (lab msk : Vec Ideal S32x200 .i32) (k : Fin k0_t1_loop.trips) (b : Fin 32) (cl : Fin 128) (s : Fin 200) :
    k0_pay2 (F := Ideal) lab msk k (ix3 b cl s) = weight (lab (ix2 b s)) (msk (ix2 b s)) (128 * k.val + cl.val) := by
  unfold k0_pay2
  show FloatOps.mulf (F := Ideal) (φ := .f32)
      (FloatOps.sitofp .f32 ((IntOp.cmpi .eq
          (broadcastTo S32x128x200 (shapeCast S32x1x200 lab shapeCasts_S32x200_S32x1x200) broadcasts_S32x1x200_S32x128x200 (ix3 b cl s))
          (broadcastTo S32x128x200
            (addi (broadcast S1x128x1 (Scalar.muli (Scalar.addi 0#32 (Scalar.muli (Scf.iv 0#32 1#32 k) 1#32)) 128#32))
              (iota .tc S1x128x1 32 [1] iota_S1x128x1_d1_w32))
            broadcasts_S1x128x1_S32x128x200 (ix3 b cl s))).setWidth 32))
      (broadcastTo S32x128x200 (shapeCast S32x1x200 (sitofp (F := Ideal) .f32 msk) shapeCasts_S32x200_S32x1x200)
        broadcasts_S32x1x200_S32x128x200 (ix3 b cl s)) = _
  rw [overClusters_apply, overClusters_apply, clusterNumber_apply, sitofp_widen_bit]
  rfl

/-! ## The means tile -/

/-- The lane sum over the tokens, into the zero word, at (b, c'). -/
theorem laneSum_apply (W : FVec Ideal S32x128x200 .f32) (b : Fin 32) (cl : Fin 128) :
    multiReduction .add [2] S32x128 W 0x00000000#32 reduces_S32x128x200_S32x128 (.inl rfl) rfl (ix2 b cl)
      = ∑ s : Fin 200, W (ix3 b cl s) := by
  refine (Ideal.multiReduction_add_single W 0x00000000#32 reduces_S32x128x200_S32x128 (.inl rfl) rfl (ix2 b cl)).trans ?_
  exact Finset.sum_congr rfl fun s _ => congrArg W (funext fun a => Fin.ext (by
    match a with
    | ⟨0, _⟩ => rfl
    | ⟨1, _⟩ => rfl
    | ⟨2, _⟩ => rfl))

/-! The batched product [32, 128, 200] × [32, 200, 64] → [32, 128, 64]: where each operand is read. -/

theorem lhs_0 (i : S32x128x64.Idx) (q : dot_S32x128x200_S32x200x64_S32x128x64_2_1_1_2_0_0.contr.Idx) :
    (dot_S32x128x200_S32x200x64_S32x128x64_2_1_1_2_0_0.lhsIdx i q 0).val = (i 0).val := by
  unfold DotDims.lhsIdx
  rw [dif_pos (show (0 : Fin S32x128x200.rank) ∈ dot_S32x128x200_S32x200x64_S32x128x64_2_1_1_2_0_0.lhsBatch by decide)]
  rfl
theorem lhs_1 (i : S32x128x64.Idx) (q : dot_S32x128x200_S32x200x64_S32x128x64_2_1_1_2_0_0.contr.Idx) :
    (dot_S32x128x200_S32x200x64_S32x128x64_2_1_1_2_0_0.lhsIdx i q 1).val = (i 1).val := by
  unfold DotDims.lhsIdx
  rw [dif_neg (show ¬(1 : Fin S32x128x200.rank) ∈ dot_S32x128x200_S32x200x64_S32x128x64_2_1_1_2_0_0.lhsBatch by decide), dif_pos (show (1 : Fin S32x128x200.rank) ∈ dot_S32x128x200_S32x200x64_S32x128x64_2_1_1_2_0_0.lhsNonContracting by decide)]
  rfl
theorem lhs_2 (i : S32x128x64.Idx) (q : dot_S32x128x200_S32x200x64_S32x128x64_2_1_1_2_0_0.contr.Idx) :
    (dot_S32x128x200_S32x200x64_S32x128x64_2_1_1_2_0_0.lhsIdx i q 2).val = (q ⟨0, by decide⟩).val :=
  dot_S32x128x200_S32x200x64_S32x128x64_2_1_1_2_0_0.lhsIdx_val_of_single rfl i q
theorem rhs_0 (i : S32x128x64.Idx) (q : dot_S32x128x200_S32x200x64_S32x128x64_2_1_1_2_0_0.contr.Idx) :
    (dot_S32x128x200_S32x200x64_S32x128x64_2_1_1_2_0_0.rhsIdx i q 0).val = (i 0).val := by
  unfold DotDims.rhsIdx
  rw [dif_pos (show (0 : Fin S32x200x64.rank) ∈ dot_S32x128x200_S32x200x64_S32x128x64_2_1_1_2_0_0.rhsBatch by decide)]
  rfl
theorem rhs_1 (i : S32x128x64.Idx) (q : dot_S32x128x200_S32x200x64_S32x128x64_2_1_1_2_0_0.contr.Idx) :
    (dot_S32x128x200_S32x200x64_S32x128x64_2_1_1_2_0_0.rhsIdx i q 1).val = (q ⟨0, by decide⟩).val :=
  dot_S32x128x200_S32x200x64_S32x128x64_2_1_1_2_0_0.rhsIdx_val_of_single rfl i q
theorem rhs_2 (i : S32x128x64.Idx) (q : dot_S32x128x200_S32x200x64_S32x128x64_2_1_1_2_0_0.contr.Idx) :
    (dot_S32x128x200_S32x200x64_S32x128x64_2_1_1_2_0_0.rhsIdx i q 2).val = (i 2).val := by
  unfold DotDims.rhsIdx
  rw [dif_neg (show ¬(2 : Fin S32x200x64.rank) ∈ dot_S32x128x200_S32x200x64_S32x128x64_2_1_1_2_0_0.rhsBatch by decide), dif_pos (show (2 : Fin S32x200x64.rank) ∈ dot_S32x128x200_S32x200x64_S32x128x64_2_1_1_2_0_0.rhsNonContracting by decide)]
  rfl

/-- The product into a zero accumulator at (b, c', d): the sum over the tokens of weight times embedding. -/
theorem product_apply (W : FVec Ideal S32x128x200 .bf16) (xs : FVec Ideal S32x200x64 .bf16) (b : Fin 32) (cl : Fin 128) (d : Fin 64) :
    matmul dot_S32x128x200_S32x200x64_S32x128x64_2_1_1_2_0_0 none W xs (constant (F := Ideal) S32x128x64 .f32 0x00000000#32) (ix3 b cl d)
      = ∑ s : Fin 200, W (ix3 b cl s) * xs (ix3 b s d) := by
  refine (Ideal.matmul_constant_zero_apply dot_S32x128x200_S32x200x64_S32x128x64_2_1_1_2_0_0 none W xs (ix3 b cl d)).trans ?_
  rw [← Equiv.sum_comp (ValueIdx.contrEquiv1 dot_S32x128x200_S32x200x64_S32x128x64_2_1_1_2_0_0 200 rfl rfl).symm]
  refine Finset.sum_congr rfl fun s _ => ?_
  have hk := ValueIdx.contrEquiv1_symm_val dot_S32x128x200_S32x200x64_S32x128x64_2_1_1_2_0_0 200 rfl rfl s
  have el : dot_S32x128x200_S32x200x64_S32x128x64_2_1_1_2_0_0.lhsIdx (ix3 b cl d) ((ValueIdx.contrEquiv1 dot_S32x128x200_S32x200x64_S32x128x64_2_1_1_2_0_0 200 rfl rfl).symm s) = ix3 b cl s := funext fun a => Fin.ext (by
    match a with
    | ⟨0, _⟩ => exact lhs_0 _ _
    | ⟨1, _⟩ => exact lhs_1 _ _
    | ⟨2, _⟩ => exact (lhs_2 _ _).trans hk)
  have er : dot_S32x128x200_S32x200x64_S32x128x64_2_1_1_2_0_0.rhsIdx (ix3 b cl d) ((ValueIdx.contrEquiv1 dot_S32x128x200_S32x200x64_S32x128x64_2_1_1_2_0_0 200 rfl rfl).symm s) = ix3 b s d := funext fun a => Fin.ext (by
    match a with
    | ⟨0, _⟩ => exact rhs_0 _ _
    | ⟨1, _⟩ => exact (rhs_1 _ _).trans hk
    | ⟨2, _⟩ => exact rhs_2 _ _)
  rw [el, er]

/-- THE MEANS TILE of half `k` at (b, c', d): the weighted sum of the scratch's embeddings times the guarded reciprocal of the count. -/
theorem means_apply (lab msk : Vec Ideal S32x200 .i32) (xs : FVec Ideal S32x200x64 .bf16) (k : Fin k0_t1_loop.trips)
    (b : Fin 32) (cl : Fin 128) (d : Fin 64) :
    k0_pay3 (F := Ideal) lab msk k xs (ix3 b cl d)
      = (∑ s : Fin 200, k0_pay2 (F := Ideal) lab msk k (ix3 b cl s) * xs (ix3 b s d))
          * recip (∑ s : Fin 200, k0_pay2 (F := Ideal) lab msk k (ix3 b cl s)) := by
  unfold k0_pay3
  refine (mulf_apply _ _ (ix3 b cl d)).trans (congrArg₂ (· * ·) ?_ ?_)
  · exact product_apply (truncf .bf16 (k0_pay2 (F := Ideal) lab msk k) bitsLt_bf16_f32) xs b cl d
  · refine (overFeatures_apply _ b cl d).trans ?_
    exact congrArg recip (laneSum_apply (k0_pay2 (F := Ideal) lab msk k) b cl)

/-- THE INTEGER TILE of half `k`: the weights tile converted. -/
theorem ints_apply (lab msk : Vec Ideal S32x200 .i32) (k : Fin k0_t1_loop.trips) (b : Fin 32) (cl : Fin 128) (s : Fin 200) :
    k0_pay4 (F := Ideal) lab msk k (ix3 b cl s) = Ideal.fptosi 32 (k0_pay2 (F := Ideal) lab msk k (ix3 b cl s)) := rfl

end Cert.KernelIdeal.Payload

end
-- ==== Proof.Block.lean ====
/-
  What the body leaves in its two output blocks, as ONE function each of the blocks it loaded.

  Over the extended reals the scratch holds the embeddings block itself (a change of float format is the identity), and
  half `k`'s tiles are the restrictions, to clusters `128·k … 128·k + 127`, of the block's cluster means and integer
  weights (`ClusterMean.mean`, `ClusterMean.wInt` over the block's 32 rows and all 256 clusters): `tileMeans`,
  `tileInts`. The two halves' tiles cover the block, so what is read back from the output's buffer is that function
  at every entry (`outMeans_eq`, `outInts_eq`).
-/
import proofs.«403179_j75539884802440_3_alg».proof.Proof.Pieces
import proofs.«403179_j75539884802440_3_alg».proof.Proof.Payload

set_option maxRecDepth 16384

noncomputable section

namespace Cert.KernelIdeal.Block

open Cert.KernelIdeal Cert.KernelIdeal.Gen Cert.ClusterMean Cert.KernelIdeal.Pieces Cert.KernelIdeal.Payload
open Idealize.ShloMosaic Idealize.ShloMosaic.ValueIdx

/-- Over the extended reals the scratch's bf16 cast of the embeddings block is the block. -/
theorem scratch_apply (x0 : Vec Ideal S32x200x64 .f32) (j : S32x200x64.Idx) : k0_pay1 (F := Ideal) x0 j = x0 j := by
  unfold k0_pay1
  exact congrFun ((shapeCast_self _ _).trans (funext fun _ => rfl)) j

/-- Half `k`'s means tile is the block's cluster means at clusters `128·k + (0 … 127)`. -/
theorem tileMeans (x0 : Vec Ideal S32x200x64 .f32) (x1 x2 : Vec Ideal S32x200 .i32) (k : Fin k0_t1_loop.trips) (x : S32x128x64.Idx) :
    k0_pay3 (F := Ideal) x1 x2 k (k0_pay1 (F := Ideal) x0) x
      = mean (C := 256) x0 x1 x2 ((Rect.unit (s := S32x256x64) (k0_off1 k) S32x128x64.size (k0_off1_inb k)).emb x) := by
  obtain ⟨b, cl, d, rfl⟩ : ∃ (b : Fin 32) (cl : Fin 128) (d : Fin 64), x = ix3 b cl d := ⟨x 0, x 1, x 2, eq_ix3 x⟩
  have e := k0_off1_eq k
  rw [mean_of x0 x1 x2 _ b (128 * k.val + cl.val) d
      (by show k0_off1 k 0 + 1 * b.val = b.val; rw [e]; show 0 + 1 * b.val = b.val; omega)
      (by show k0_off1 k 1 + 1 * cl.val = 128 * k.val + cl.val; rw [e]; show 128 * k.val + 1 * cl.val = _; omega)
      (by show k0_off1 k 2 + 1 * d.val = d.val; rw [e]; show 0 + 1 * d.val = d.val; omega)]
  rw [means_apply]
  unfold meanAt w
  simp only [weights_apply, scratch_apply]

/-- Half `k`'s integer tile is the block's integer weights at clusters `128·k + (0 … 127)`. -/
theorem tileInts (x1 x2 : Vec Ideal S32x200 .i32) (k : Fin k0_t1_loop.trips) (x : S32x128x200.Idx) :
    k0_pay4 (F := Ideal) x1 x2 k x
      = wInt (C := 256) x1 x2 ((Rect.unit (s := S32x256x200) (k0_off2 k) S32x128x200.size (k0_off2_inb k)).emb x) := by
  obtain ⟨b, cl, s, rfl⟩ : ∃ (b : Fin 32) (cl : Fin 128) (s : Fin 200), x = ix3 b cl s := ⟨x 0, x 1, x 2, eq_ix3 x⟩
  have e := k0_off2_eq k
  rw [wInt_of x1 x2 _ b (128 * k.val + cl.val) s
      (by show k0_off2 k 0 + 1 * b.val = b.val; rw [e]; show 0 + 1 * b.val = b.val; omega)
      (by show k0_off2 k 1 + 1 * cl.val = 128 * k.val + cl.val; rw [e]; show 128 * k.val + 1 * cl.val = _; omega)
      (by show k0_off2 k 2 + 1 * s.val = s.val; rw [e]; show 0 + 1 * s.val = s.val; omega)]
  rw [ints_apply, weights_apply]
  rfl

section Run
variable (c : Dev nD) (i : grid0.Coords) (arg1 : Memref sig .tc .vmem S32x200x64 .f32) (harg1 : arg1.IsWhole) (arg2 : Memref sig .tc .vmem S32x200 .i32) (harg2 : arg2.IsWhole) (arg3 : Memref sig .tc .vmem S32x200 .i32) (harg3 : arg3.IsWhole) (arg4 : Memref sig .tc .vmem S32x256x64 .f32) (harg4 : arg4.IsWhole) (arg5 : Memref sig .tc .vmem S32x256x200 .i32) (harg5 : arg5.IsWhole) (arg6 : Memref sig .tc .vmem S32x200x64 .bf16) (harg6 : arg6.IsWhole)
  (x0 : Vec Ideal S32x200x64 .f32) (x1 x2 : Vec Ideal S32x200 .i32)

/-- THE FIRST OUTPUT BLOCK after the body: the block's cluster means. -/
theorem outMeans_eq : out0_A_3 (F := Ideal) c i arg1 harg1 arg2 harg2 arg3 harg3 arg4 harg4 arg5 harg5 arg6 harg6 x0 x1 x2 = mean (C := 256) x0 x1 x2 := by
  funext y
  unfold out0_A_3
  rw [View.read_writes_junk_eq_canon]
  refine View.canon_apply_of_pieces (mean (C := 256) x0 x1 x2) _ ?_ y (cover0_A_3 c i arg1 harg1 arg2 harg2 arg3 harg3 arg4 harg4 arg5 harg5 arg6 harg6 x0 x1 x2 y)
  intro p hp x
  obtain ⟨k, rfl⟩ := run_tiles3 c i arg1 harg1 arg2 harg2 arg3 harg3 arg4 harg4 arg5 harg5 arg6 harg6 x0 x1 x2 p hp
  exact tileMeans x0 x1 x2 k x

/-- THE SECOND OUTPUT BLOCK after the body: the block's integer weights. -/
theorem outInts_eq : out0_A_4 (F := Ideal) c i arg1 harg1 arg2 harg2 arg3 harg3 arg4 harg4 arg5 harg5 arg6 harg6 x0 x1 x2 = wInt (C := 256) x1 x2 := by
  funext y
  unfold out0_A_4
  rw [View.read_writes_junk_eq_canon]
  refine View.canon_apply_of_pieces (wInt (C := 256) x1 x2) _ ?_ y (cover0_A_4 c i arg1 harg1 arg2 harg2 arg3 harg3 arg4 harg4 arg5 harg5 arg6 harg6 x0 x1 x2 y)
  intro p hp x
  obtain ⟨k, rfl⟩ := run_tiles4 c i arg1 harg1 arg2 harg2 arg3 harg3 arg4 harg4 arg5 harg5 arg6 harg6 x0 x1 x2 p hp
  exact tileInts x1 x2 k x

end Run

end Cert.KernelIdeal.Block

end
-- ==== Proof.KernelValue.lean ====
/-
  The idealized kernel's run, read: after it the two result arrays hold the cluster means and the integer weights of
  the argument arrays, and the arguments are as launched.

  Grid point `t` (of 32) works on rows `32·t … 32·t + 31`: each of its input blocks reads its argument array at row
  `32·t + b` (`xblk_apply`, `lblk_apply`, `mblk_apply`; the printed index maps decided once over the 32 points), and it
  writes back, into block `t` of each result array, the block's cluster means and integer weights — which, a row's
  results depending on that row alone, are block `t` of the whole arrays' (`flushedMeans_eq`, `flushedInts_eq`).
  Every index of a result array lies in the block of point `row / 32` (`coverMeans`, `coverInts`), so the arrays end
  at those functions everywhere (`finalMeans`, `finalInts`), and the frame run restated is `run`.
-/
import proofs.«403179_j75539884802440_3_alg».proof.Proof.Gen.KernelIdeal.Value
import proofs.«403179_j75539884802440_3_alg».proof.Proof.Block

set_option maxRecDepth 16384

noncomputable section

namespace Cert.KernelIdeal.RunValue

open Cert.KernelIdeal Cert.KernelIdeal.Gen Cert.ClusterMean
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument arrays as launched, and the blocks of them grid point `t` is given. -/
abbrev xarr (c : Dev nD) : Vec Ideal S1024x200x64 .f32 := m ((c : Thread nD τ).loc main_arg0)
abbrev larr (c : Dev nD) : Vec Ideal S1024x200 .i32 := m ((c : Thread nD τ).loc main_arg1)
abbrev marr (c : Dev nD) : Vec Ideal S1024x200 .i32 := m ((c : Thread nD τ).loc main_arg2)
abbrev xblk (c : Dev nD) (t : Fin cfg0.N) : Vec Ideal S32x200x64 .f32 := iblk m c 0 t
abbrev lblk (c : Dev nD) (t : Fin cfg0.N) : Vec Ideal S32x200 .i32 := iblk m c 1 t
abbrev mblk (c : Dev nD) (t : Fin cfg0.N) : Vec Ideal S32x200 .i32 := iblk m c 2 t

/-- The printed index maps, decided over the 32 grid points: every window's block index is (t, 0, …). -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem points : cfg0.N = 32 := by decide

theorem point_lt (t : Fin cfg0.N) : t.val < 32 := Nat.lt_of_lt_of_eq t.isLt points

/-- Row `b` of point `t`'s blocks is row `32·t + b` of the arrays. -/
def rowOf (t : Fin cfg0.N) (b : Fin 32) : Fin 1024 :=
  ⟨32 * t.val + b.val, by have := point_lt t; have := b.isLt; omega⟩

theorem xblk_apply (c : Dev nD) (t : Fin cfg0.N) (b : Fin 32) (s : Fin 200) (d : Fin 64) :
    xblk m c t (ix3 b s d) = xarr m c (ix3 (rowOf t b) s d) := by
  show m ((c : Thread nD τ).loc main_arg0) (((cfg0.win 0).blk t).view.emb (ix3 b s d)) = m ((c : Thread nD τ).loc main_arg0) (ix3 (rowOf t b) s d)
  obtain ⟨e0, e1, e2, -⟩ := idx_facts t
  refine congrArg _ (funext fun a => Fin.ext ?_)
  match a with
  | ⟨0, _⟩ => show win0_0.index t (0 : Fin 3) * 32 + 1 * b.val = 32 * t.val + b.val; omega
  | ⟨1, _⟩ => show win0_0.index t (1 : Fin 3) * 200 + 1 * s.val = s.val; omega
  | ⟨2, _⟩ => show win0_0.index t (2 : Fin 3) * 64 + 1 * d.val = d.val; omega

theorem lblk_apply (c : Dev nD) (t : Fin cfg0.N) (b : Fin 32) (s : Fin 200) :
    lblk m c t (ix2 b s) = larr m c (ix2 (rowOf t b) s) := by
  show m ((c : Thread nD τ).loc main_arg1) (((cfg0.win 1).blk t).view.emb (ix2 b s)) = m ((c : Thread nD τ).loc main_arg1) (ix2 (rowOf t b) s)
  obtain ⟨-, -, -, e0, e1, -⟩ := idx_facts t
  refine congrArg _ (funext fun a => Fin.ext ?_)
  match a with
  | ⟨0, _⟩ => show win0_1.index t (0 : Fin 2) * 32 + 1 * b.val = 32 * t.val + b.val; omega
  | ⟨1, _⟩ => show win0_1.index t (1 : Fin 2) * 200 + 1 * s.val = s.val; omega

theorem mblk_apply (c : Dev nD) (t : Fin cfg0.N) (b : Fin 32) (s : Fin 200) :
    mblk m c t (ix2 b s) = marr m c (ix2 (rowOf t b) s) := by
  show m ((c : Thread nD τ).loc main_arg2) (((cfg0.win 2).blk t).view.emb (ix2 b s)) = m ((c : Thread nD τ).loc main_arg2) (ix2 (rowOf t b) s)
  obtain ⟨-, -, -, -, -, e0, e1, -⟩ := idx_facts t
  refine congrArg _ (funext fun a => Fin.ext ?_)
  match a with
  | ⟨0, _⟩ => show win0_2.index t (0 : Fin 2) * 32 + 1 * b.val = 32 * t.val + b.val; omega
  | ⟨1, _⟩ => show win0_2.index t (1 : Fin 2) * 200 + 1 * s.val = s.val; omega

/-! ## The cluster means -/

/-- WHAT POINT `t` WRITES BACK to the first result is block `t` of the arrays' cluster means. -/
theorem flushedMeans_eq (c : Dev nD) (t : Fin cfg0.N) :
    (dats m 0 c).flushed 3 t
      = ((cfg0.win 3).blk t).view.read (Elt Ideal) (mean (C := 256) (xarr m c) (larr m c) (marr m c)) := by
  rw [Value.flushed3_A, Block.outMeans_eq]
  funext j
  have hb : (j 0).val < 32 := (j 0).isLt
  have hd : (j 2).val < 64 := (j 2).isLt
  obtain ⟨-, -, -, -, -, -, -, e0, e1, e2, -⟩ := idx_facts t
  show mean (C := 256) (xblk m c t) (lblk m c t) (mblk m c t) j
      = mean (C := 256) (xarr m c) (larr m c) (marr m c) (((cfg0.win 3).blk t).view.emb j)
  rw [mean_of _ _ _ j ⟨(j 0).val, hb⟩ (j 1).val ⟨(j 2).val, hd⟩ rfl rfl rfl,
    mean_of _ _ _ (((cfg0.win 3).blk t).view.emb j) (rowOf t ⟨(j 0).val, hb⟩) (j 1).val ⟨(j 2).val, hd⟩
      (by show win0_3.index t (0 : Fin 3) * 32 + 1 * (j 0).val = 32 * t.val + (j 0).val; omega)
      (by show win0_3.index t (1 : Fin 3) * 256 + 1 * (j 1).val = (j 1).val; omega)
      (by show win0_3.index t (2 : Fin 3) * 64 + 1 * (j 2).val = (j 2).val; omega)]
  exact meanAt_rows _ _ _ _ _ _ (rowOf t) (xblk_apply m c t) (lblk_apply m c t) (mblk_apply m c t) _ _ _

/-- An index of the first result is in point `t`'s block iff each coordinate is in the block's range on its axis. -/
theorem mem_blk3 (t : Fin cfg0.N) (i : S1024x256x64.Idx) :
    i ∈ ((cfg0.win 3).blk t).view.set ↔ ∀ a : Fin 3, win0_3.index t a * S32x256x64.size a ≤ (i a).val ∧ (i a).val < win0_3.index t a * S32x256x64.size a + S32x256x64.size a := by
  show i ∈ ((View.whole main_v0_0).slice (win0_3.rect t)).set ↔ _
  rw [View.set_slice_whole, Rect.mem_set_unit]
  exact Iff.rfl

/-- Every index of the first result is in the block of the point its row belongs to. -/
theorem coverMeans (i : S1024x256x64.Idx) :
    ∃ t : Fin cfg0.N, (cfg0.win 3).flush t = true ∧ i ∈ ((cfg0.win 3).blk t).view.set := by
  have h0 : (i 0).val < 1024 := (i 0).isLt
  have h1 : (i 1).val < 256 := (i 1).isLt
  have h2 : (i 2).val < 64 := (i 2).isLt
  refine ⟨⟨(i 0).val / 32, by rw [points]; omega⟩, flush0_3 _, ?_⟩
  obtain ⟨-, -, -, -, -, -, -, e0, e1, e2, -⟩ := idx_facts ⟨(i 0).val / 32, by rw [points]; omega⟩
  rw [mem_blk3]
  intro a
  match a with
  | ⟨0, _⟩ => show win0_3.index _ (0 : Fin 3) * 32 ≤ (i 0).val ∧ (i 0).val < win0_3.index _ (0 : Fin 3) * 32 + 32; rw [e0]; show (i 0).val / 32 * 32 ≤ (i 0).val ∧ (i 0).val < (i 0).val / 32 * 32 + 32; omega
  | ⟨1, _⟩ => show win0_3.index _ (1 : Fin 3) * 256 ≤ (i 1).val ∧ (i 1).val < win0_3.index _ (1 : Fin 3) * 256 + 256; rw [e1]; omega
  | ⟨2, _⟩ => show win0_3.index _ (2 : Fin 3) * 64 ≤ (i 2).val ∧ (i 2).val < win0_3.index _ (2 : Fin 3) * 64 + 64; rw [e2]; omega

/-- THE FIRST RESULT after the run: the cluster means of the arguments. -/
theorem finalMeans (c : Dev nD) :
    (dats m 0 c).arrAt 3 cfg0.N = mean (C := 256) (xarr m c) (larr m c) (marr m c) :=
  (dats m 0 c).arrAt_eq_of_cover 3 _ (fun t _ => flushedMeans_eq m c t) coverMeans

/-! ## The integer weights -/

/-- WHAT POINT `t` WRITES BACK to the second result is block `t` of the arrays' integer weights. -/
theorem flushedInts_eq (c : Dev nD) (t : Fin cfg0.N) :
    (dats m 0 c).flushed 4 t
      = ((cfg0.win 4).blk t).view.read (Elt Ideal) (wInt (C := 256) (larr m c) (marr m c)) := by
  rw [Value.flushed4_A, Block.outInts_eq]
  funext j
  have hb : (j 0).val < 32 := (j 0).isLt
  have hs : (j 2).val < 200 := (j 2).isLt
  obtain ⟨-, -, -, -, -, -, -, -, -, -, e0, e1, e2⟩ := idx_facts t
  show wInt (C := 256) (lblk m c t) (mblk m c t) j
      = wInt (C := 256) (larr m c) (marr m c) (((cfg0.win 4).blk t).view.emb j)
  rw [wInt_of _ _ j ⟨(j 0).val, hb⟩ (j 1).val ⟨(j 2).val, hs⟩ rfl rfl rfl,
    wInt_of _ _ (((cfg0.win 4).blk t).view.emb j) (rowOf t ⟨(j 0).val, hb⟩) (j 1).val ⟨(j 2).val, hs⟩
      (by show win0_4.index t (0 : Fin 3) * 32 + 1 * (j 0).val = 32 * t.val + (j 0).val; omega)
      (by show win0_4.index t (1 : Fin 3) * 256 + 1 * (j 1).val = (j 1).val; omega)
      (by show win0_4.index t (2 : Fin 3) * 200 + 1 * (j 2).val = (j 2).val; omega)]
  exact wIntAt_rows _ _ _ _ (rowOf t) (lblk_apply m c t) (mblk_apply m c t) _ _ _

theorem mem_blk4 (t : Fin cfg0.N) (i : S1024x256x200.Idx) :
    i ∈ ((cfg0.win 4).blk t).view.set ↔ ∀ a : Fin 3, win0_4.index t a * S32x256x200.size a ≤ (i a).val ∧ (i a).val < win0_4.index t a * S32x256x200.size a + S32x256x200.size a := by
  show i ∈ ((View.whole main_v0_1).slice (win0_4.rect t)).set ↔ _
  rw [View.set_slice_whole, Rect.mem_set_unit]
  exact Iff.rfl

theorem coverInts (i : S1024x256x200.Idx) :
    ∃ t : Fin cfg0.N, (cfg0.win 4).flush t = true ∧ i ∈ ((cfg0.win 4).blk t).view.set := by
  have h0 : (i 0).val < 1024 := (i 0).isLt
  have h1 : (i 1).val < 256 := (i 1).isLt
  have h2 : (i 2).val < 200 := (i 2).isLt
  refine ⟨⟨(i 0).val / 32, by rw [points]; omega⟩, flush0_4 _, ?_⟩
  obtain ⟨-, -, -, -, -, -, -, -, -, -, e0, e1, e2⟩ := idx_facts ⟨(i 0).val / 32, by rw [points]; omega⟩
  rw [mem_blk4]
  intro a
  match a with
  | ⟨0, _⟩ => show win0_4.index _ (0 : Fin 3) * 32 ≤ (i 0).val ∧ (i 0).val < win0_4.index _ (0 : Fin 3) * 32 + 32; rw [e0]; show (i 0).val / 32 * 32 ≤ (i 0).val ∧ (i 0).val < (i 0).val / 32 * 32 + 32; omega
  | ⟨1, _⟩ => show win0_4.index _ (1 : Fin 3) * 256 ≤ (i 1).val ∧ (i 1).val < win0_4.index _ (1 : Fin 3) * 256 + 256; rw [e1]; omega
  | ⟨2, _⟩ => show win0_4.index _ (2 : Fin 3) * 200 ≤ (i 2).val ∧ (i 2).val < win0_4.index _ (2 : Fin 3) * 200 + 200; rw [e2]; omega

/-- THE SECOND RESULT after the run: the integer weights of the arguments. -/
theorem finalInts (c : Dev nD) :
    (dats m 0 c).arrAt 4 cfg0.N = wInt (C := 256) (larr m c) (marr m c) :=
  (dats m 0 c).arrAt_eq_of_cover 4 _ (fun t _ => flushedInts_eq m c t) coverInts

/-! ## The run, read -/

/-- Every weakly fair execution of the idealized kernel ends with the two results at the cluster means and the integer
    weights of the arguments as launched, the arguments unchanged. -/
theorem run : θ_run defs (onTc (τ := τ) (main (F := Ideal))) ⟨m, fun _ => 0, ρ⟩ fun r => ∀ c : Dev nD,
      r.2.mem ((c : Thread nD τ).loc main_v0_0) = mean (C := 256) (xarr m c) (larr m c) (marr m c)
      ∧ r.2.mem ((c : Thread nD τ).loc main_v0_1) = wInt (C := 256) (larr m c) (marr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalMeans m c), (h c).2.1.trans (finalInts m c), (h c).2.2⟩)
    (Value.run_blocks m ρ)

end Cert.KernelIdeal.RunValue

end
-- ==== Proof.RefValue.lean ====
/-
  The reference's two results, read: the cluster means and the integer weights of the argument arrays.

  The reference builds the weights array in one piece — the labels repeated over the 256 clusters compared with the
  cluster numbers 0 … 255 repeated over rows and tokens, the comparison's bit as 0 or 1, times the mask's value —
  (`weights_apply`), sums it over the tokens from the zero word, which is the real number 0 (`count_apply`), takes the
  guarded reciprocal by a compare, a maximum, a quotient and a select (`recip_apply`), and multiplies the batched
  product of the weights with the embeddings by it (`means_eq`); its second result is the weights array converted
  (`ints_eq`).
-/
import proofs.«403179_j75539884802440_3_alg».proof.Proof.RefRead
import proofs.«403179_j75539884802440_3_alg».proof.Proof.Spec

noncomputable section

namespace Cert.ReferenceIdeal.RefValue

open Cert.ReferenceIdeal Cert.ReferenceIdeal.Gen Cert.ReferenceIdeal.ReadP Cert.ClusterMean
open Idealize.ShloMosaic Idealize.ShloMosaic.ValueIdx

variable (x0 : (⟨S1024x200x64, .f32⟩ : BufTy).Contents (Elt Ideal)) (x1 x2 : (⟨S1024x200, .i32⟩ : BufTy).Contents (Elt Ideal))

/-- The weights array at (b, c, s): the membership weight of token `s` of row `b` in cluster `c`. -/
theorem weights_apply (i : S1024x256x200.Idx) :
    val_main_v10 (F := Ideal) x1 x2 i
      = w (R := 1024) x1 x2 ⟨(i 0).val, (i 0).isLt⟩ (i 1).val ⟨(i 2).val, (i 2).isLt⟩ := by
  rw [val_main_v10_apply, val_main_v7_apply, val_main_v6_apply, val_main_v4_apply, val_main_v1_apply, val_main_v5_apply,
    val_main_v3_apply, val_main_v2_apply, val_main_v9_apply, val_main_v8_apply, val_main_v0_apply]
  have e1 : idx_main_v1 (idx_main_v4 i) = ix2 (⟨(i 0).val, (i 0).isLt⟩ : Fin 1024) (⟨(i 2).val, (i 2).isLt⟩ : Fin 200) :=
    funext fun a => Fin.ext (by match a with | ⟨0, _⟩ => rfl | ⟨1, _⟩ => rfl)
  have e2 : idx_main_v8 (idx_main_v9 i) = ix2 (⟨(i 0).val, (i 0).isLt⟩ : Fin 1024) (⟨(i 2).val, (i 2).isLt⟩ : Fin 200) :=
    funext fun a => Fin.ext (by match a with | ⟨0, _⟩ => rfl | ⟨1, _⟩ => rfl)
  rw [e1, e2]
  rfl

/-- A cluster's count: the sum of its weights over the tokens. -/
theorem count_apply (j : S1024x256.Idx) :
    val_main_v11 (F := Ideal) x1 x2 j = ∑ s : Fin 200, w (R := 1024) x1 x2 ⟨(j 0).val, (j 0).isLt⟩ (j 1).val s := by
  rw [val_main_v11_apply, val_main_cst_apply, Ideal.ofBits_def, Ideal.ofBits_zero_f32, zero_add]
  refine Finset.sum_congr rfl fun s _ => ?_
  rw [weights_apply]

/-- The guarded reciprocal of a cluster's count. -/
theorem recip_apply (j : S1024x256.Idx) :
    val_main_v18 (F := Ideal) x1 x2 j
      = recip (∑ s : Fin 200, w (R := 1024) x1 x2 ⟨(j 0).val, (j 0).isLt⟩ (j 1).val s) := by
  rw [val_main_v18_apply, val_main_v13_apply, val_main_v17_apply, val_main_v15_apply, count_apply, val_main_v12_apply,
    val_main_cst_0_apply, val_main_v16_apply, val_main_cst_2_apply, val_main_v14_apply, val_main_cst_1_apply,
    val_main_call0_v1_apply, val_main_call0_v0_apply, val_main_cst_3_apply]
  rfl

/-- THE FIRST RESULT is the cluster means of the arguments. -/
theorem means_eq : val_main_v22 (F := Ideal) x0 x1 x2 = mean (C := 256) x0 x1 x2 := by
  funext i
  rw [val_main_v22_apply, val_main_v19_apply, val_main_v21_apply, val_main_v20_apply, recip_apply, Ideal.mulf_def]
  unfold mean meanAt
  refine congrArg₂ (· * ·) (Finset.sum_congr rfl fun s _ => ?_) rfl
  have er : ridx_main_v19 i s = ix3 (⟨(i 0).val, (i 0).isLt⟩ : Fin 1024) s (⟨(i 2).val, (i 2).isLt⟩ : Fin 64) :=
    funext fun a => Fin.ext (by match a with | ⟨0, _⟩ => rfl | ⟨1, _⟩ => rfl | ⟨2, _⟩ => rfl)
  rw [weights_apply, er]

/-- THE SECOND RESULT is the integer weights of the arguments. -/
theorem ints_eq : val_main_v23 (F := Ideal) x1 x2 = wInt (C := 256) x1 x2 := by
  funext i
  rw [val_main_v23_apply, weights_apply]
  rfl

end Cert.ReferenceIdeal.RefValue

end
-- ==== Proof.lean ====
/-
  A kernel that, per batch row, averages the item embeddings of each of 256 clusters, against its plain array reference:
  both compute, for row `b`, cluster `c` and feature `d`,

      mean b c d = (Σ_s w b c s · x b s d) · r b c,      w b c s = [label b s = c] · mask b s,
      r b c = 1 / max (n b c) 1 if n b c > 0 else 0,      n b c = Σ_s w b c s,

  and return with it the weights `w` converted to 32-bit integers.

  The kernel works on 32 rows per grid point and, inside a point, on the clusters in two halves of 128: per half it builds
  the weights tile by comparing the labels with the cluster numbers `128·k + (0 … 127)`, sums it over the tokens for the
  counts, multiplies it (as a batched matrix product into a zero accumulator) with the embeddings it keeps in a scratch
  buffer, scales by the guarded reciprocal, and stores the half's two tiles. Over the extended reals a change of float
  format is the identity, a product into a zero accumulator is the plain sum of products, and a sum does not depend on
  its order, so every tile is the restriction of the functions above (Proof/Payload.lean, Proof/Block.lean); the tiles
  cover each block and the blocks cover the arrays (Proof/Pieces.lean, Proof/KernelValue.lean). The reference computes
  the same functions in one piece (Proof/RefValue.lean). No law that needs finite inputs is used: the two sides are
  the same sums of the same products.

  The claims: the three programs run and leave their arguments unchanged (the kernel's two runs are the frame
  certificates of its body; the reference's is its run with the results dropped); the idealized kernel is the printed
  kernel read over the extended reals, no operation rewritten; and, from memories that agree on the arguments, the
  idealized kernel and the idealized reference end with equal results.
-/
import proofs.«403179_j75539884802440_3_alg».proof.Defs
import proofs.«403179_j75539884802440_3_alg».proof.Proof.Gen.Kernel
import proofs.«403179_j75539884802440_3_alg».proof.Proof.Gen.Kernel.Skeleton
import proofs.«403179_j75539884802440_3_alg».proof.Proof.Gen.Kernel.Loops
import proofs.«403179_j75539884802440_3_alg».proof.Proof.Gen.Kernel.Launch
import proofs.«403179_j75539884802440_3_alg».proof.Proof.Gen.Kernel.Points
import proofs.«403179_j75539884802440_3_alg».proof.Proof.Gen.Kernel.Frame
import proofs.«403179_j75539884802440_3_alg».proof.Proof.Gen.KernelIdeal
import proofs.«403179_j75539884802440_3_alg».proof.Proof.Gen.KernelIdeal.Skeleton
import proofs.«403179_j75539884802440_3_alg».proof.Proof.Gen.KernelIdeal.Loops
import proofs.«403179_j75539884802440_3_alg».proof.Proof.Gen.KernelIdeal.Launch
import proofs.«403179_j75539884802440_3_alg».proof.Proof.Gen.KernelIdeal.Points
import proofs.«403179_j75539884802440_3_alg».proof.Proof.Gen.KernelIdeal.Frame
import proofs.«403179_j75539884802440_3_alg».proof.Proof.Gen.ReferenceIdeal
import proofs.«403179_j75539884802440_3_alg».proof.Proof.Gen.Pre_finite_inputs
import proofs.«403179_j75539884802440_3_alg».proof.Proof.Gen.KernelIdeal.Value
import proofs.«403179_j75539884802440_3_alg».proof.Proof.KernelValue
import proofs.«403179_j75539884802440_3_alg».proof.Proof.RefValue
import Idealize.ShloMosaic.Adequacy
import Idealize.ShloMosaic.Init

noncomputable section

namespace Cert.Proof

open Idealize.ShloMosaic Idealize.SL.Sem Cert.Kernel

/-- The printed kernel runs and keeps its arguments: its body's frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference runs and keeps its arguments: its run, the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments both idealized programs end with the cluster means and the integer
    weights of those arguments: the kernel by its run read block by block, the reference by its run read operation by
    operation. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · refine ((Cert.ReferenceIdeal.ReadP.val_main_v22_eq _ _ _).trans (Cert.ReferenceIdeal.RefValue.means_eq _ _ _)).trans ?_
    rw [(hagree c).1, (hagree c).2.1, (hagree c).2.2]
  · refine ((Cert.ReferenceIdeal.ReadP.val_main_v23_eq _ _).trans (Cert.ReferenceIdeal.RefValue.ints_eq _ _)).trans ?_
    rw [(hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
